-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64x2 : Shape := ⟨2, ![64, 2]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) (main_arg2 : IVec S64x2 32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S64x2 : Shape := ⟨2, ![64, 2]⟩
abbrev S64x1 : Shape := ⟨2, ![64, 1]⟩
abbrev S64 : Shape := ⟨1, ![64]⟩
abbrev S_ : Shape := ⟨0, ![]⟩
abbrev S1x8192 : Shape := ⟨2, ![1, 8192]⟩
abbrev S1x3x512x512 : Shape := ⟨4, ![1, 3, 512, 512]⟩
abbrev S1x128 : Shape := ⟨2, ![1, 128]⟩
abbrev S1 : Shape := ⟨1, ![1]⟩
abbrev S3x512x512 : Shape := ⟨3, ![3, 512, 512]⟩
abbrev S1x512 : Shape := ⟨2, ![1, 512]⟩
abbrev S512 : Shape := ⟨1, ![512]⟩
abbrev S1x1x512 : Shape := ⟨3, ![1, 1, 512]⟩
abbrev S3x512 : Shape := ⟨2, ![3, 512]⟩
abbrev S3 : Shape := ⟨1, ![3]⟩
abbrev S3x1 : Shape := ⟨2, ![3, 1]⟩
abbrev S1x1 : Shape := ⟨2, ![1, 1]⟩
abbrev S64x128 : Shape := ⟨2, ![64, 128]⟩

abbrev nBuf : Space → Nat
  | .hbm => 71
  | .vmem => 6
  | .smem => 4
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x2, .i32⟩
  | .hbm, ⟨3, _⟩ => ⟨S64x1, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S1x8192, .f32⟩
  | .hbm, ⟨52, _⟩ => ⟨S64x128, .f32⟩
  | .hbm, ⟨53, _⟩ => ⟨S64x1, .f32⟩
  | .hbm, ⟨54, _⟩ => ⟨S64, .f32⟩
  | .hbm, ⟨55, _⟩ => ⟨S_, .f32⟩
  | .hbm, ⟨56, _⟩ => ⟨S_, .f32⟩
  | .hbm, ⟨57, _⟩ => ⟨S64x1, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x128, .f32⟩
  | .local _ .vmem, ⟨5, _⟩ => ⟨S1x128, .f32⟩
  | .local _ .smem, ⟨0, _⟩ => ⟨S64, .i32⟩
  | .local _ .smem, ⟨1, _⟩ => ⟨S64, .i32⟩
  | .local _ .smem, ⟨2, _⟩ => ⟨S64, .i32⟩
  | .local _ .smem, ⟨3, _⟩ => ⟨S64, .i32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_7 : Ref sig .tc := ⟨.hbm, 33, rfl⟩
abbrev main_v24 : Ref sig .tc := ⟨.hbm, 34, rfl⟩
abbrev main_v25 : Ref sig .tc := ⟨.hbm, 35, rfl⟩
abbrev main_c_8 : Ref sig .tc := ⟨.hbm, 36, rfl⟩
abbrev main_v26 : Ref sig .tc := ⟨.hbm, 37, rfl⟩
abbrev main_v27 : Ref sig .tc := ⟨.hbm, 38, rfl⟩
abbrev main_c_9 : Ref sig .tc := ⟨.hbm, 39, rfl⟩
abbrev main_v28 : Ref sig .tc := ⟨.hbm, 40, rfl⟩
abbrev main_v29 : Ref sig .tc := ⟨.hbm, 41, rfl⟩
abbrev main_c_10 : Ref sig .tc := ⟨.hbm, 42, rfl⟩
abbrev main_v30 : Ref sig .tc := ⟨.hbm, 43, rfl⟩
abbrev main_v31 : Ref sig .tc := ⟨.hbm, 44, rfl⟩
abbrev main_c_11 : Ref sig .tc := ⟨.hbm, 45, rfl⟩
abbrev main_v32 : Ref sig .tc := ⟨.hbm, 46, rfl⟩
abbrev main_v33 : Ref sig .tc := ⟨.hbm, 47, rfl⟩
abbrev main_c_12 : Ref sig .tc := ⟨.hbm, 48, rfl⟩
abbrev main_v34 : Ref sig .tc := ⟨.hbm, 49, rfl⟩
abbrev main_v35 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_13 : Ref sig .tc := ⟨.hbm, 59, rfl⟩
abbrev main_v45 : Ref sig .tc := ⟨.hbm, 60, rfl⟩
abbrev main_v46 : Ref sig .tc := ⟨.hbm, 61, rfl⟩
abbrev main_cst_14 : Ref sig .tc := ⟨.hbm, 62, rfl⟩
abbrev main_v47 : Ref sig .tc := ⟨.hbm, 63, rfl⟩
abbrev main_cst_15 : Ref sig .tc := ⟨.hbm, 64, rfl⟩
abbrev main_v48 : Ref sig .tc := ⟨.hbm, 65, rfl⟩
abbrev main_cst_16 : Ref sig .tc := ⟨.hbm, 66, rfl⟩
abbrev main_v49 : Ref sig .tc := ⟨.hbm, 67, rfl⟩
abbrev main_cst_17 : Ref sig .tc := ⟨.hbm, 68, rfl⟩
abbrev main_v50 : Ref sig .tc := ⟨.hbm, 69, rfl⟩
abbrev main_v51 : Ref sig .tc := ⟨.hbm, 70, rfl⟩
abbrev main_v17 : Ref sig .tc := ⟨.smem, 0, rfl⟩
abbrev main_v18 : Ref sig .tc := ⟨.smem, 1, rfl⟩
abbrev main_v36 : Ref sig .tc := ⟨.smem, 2, rfl⟩
abbrev main_v37 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨4, ![main_v17.idx, main_v18.idx, main_v36.idx, main_v37.idx], fun | 0 => main_v17.names | 1 => main_v18.names | 2 => main_v36.names | 3 => main_v37.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  numel1_S1 : S1.numel = 1
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  iota_S1x512_d1_w32 : S1x512.Iotas .tc 32 [1]
  shapeCasts_S1x512_S512 : S1x512.ShapeCasts S512
  natLt_1_32 : 1 < 32
  shapeCasts_S512_S1x1x512 : S512.ShapeCasts S1x1x512
  broadcasts_S1x1x512_S3x512x512 : S1x1x512.Broadcasts S3x512x512
  reduces_S3x512x512_S3x512 : S3x512x512.Reduces [2] S3x512
  shapeCasts_S512_S1x512 : S512.ShapeCasts S1x512
  broadcasts_S1x512_S3x512 : S1x512.Broadcasts S3x512
  reduces_S3x512_S3 : S3x512.Reduces [1] S3
  shapeCasts_S3_S3x1 : S3.ShapeCasts S3x1
  reduces_S3x1_S1 : S3x1.Reduces [0] S1
  shapeCasts_S1_S1x1 : S1.ShapeCasts S1x1
  inpos_S1x1_p0_0 : ∀ a, (![0, 0] : Fin 2 → Nat) a < S1x1.size a
  iota_S1x128_d1_w32 : S1x128.Iotas .tc 32 [1]
  inb_S1x128_S1x128_0_0 : ∀ a, (![0, 0] : Fin 2 → Nat) a + S1x128.size a ≤ S1x128.size a
  h_S1x128 : 0 < S1x128.numel
  shapeCasts_S1x8192_S64x128 : S1x8192.ShapeCasts S64x128
  slices_S64x128_S64x1_0_0 : S64x128.Slices ![0, 0] S64x1
  reducesTo_S64_S_d0 : S64.ReducesTo [0] S_
  h_S_ : 0 < S_.numel
  slices_S64x128_S64x1_0_1 : S64x128.Slices ![0, 1] S64x1
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S64x3x512x512.size a
  hwx0_1 : ∀ i : grid0.Coords, EltTy.bits .f32 = 32 ∨ (Rect.block (s := S64x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x8192.size a
  hwx0_2 : ∀ i : grid0.Coords, EltTy.bits .f32 = 32 ∨ (Rect.block (s := S1x8192) S1x128.size (cc0_transform_2 i) (hinb0_2 i)).WholeWords (EltTy.packing .f32)

variable [Facts₀]

abbrev spec0_0 : Pipeline.WinSpec sig grid0.rank :=
  Pipeline.WinSpec.ofSpec (Memref.whole main_arg0) S1x3x512x512.size reads0_0 false false 2 stage0_0 sem0_0 nbuf0_0 hstage0_0

abbrev spec0_1 : Pipeline.WinSpec sig grid0.rank :=
  Pipeline.WinSpec.ofSpec (Memref.whole main_arg1) S1x3x512x512.size reads0_1 false false 2 stage0_1 sem0_1 nbuf0_1 hstage0_1

abbrev spec0_2 : Pipeline.WinSpec sig grid0.rank :=
  Pipeline.WinSpec.ofSpec (Memref.whole main_v38) S1x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x3x512x512 : Shape := ⟨4, ![64, 3, 512, 512]⟩
abbrev S64x2 : Shape := ⟨2, ![64, 2]⟩
abbrev S64x1 : Shape := ⟨2, ![64, 1]⟩
abbrev S64 : Shape := ⟨1, ![64]⟩
abbrev S_ : Shape := ⟨0, ![]⟩
abbrev S512 : Shape := ⟨1, ![512]⟩
abbrev S1x512 : Shape := ⟨2, ![1, 512]⟩
abbrev S64x512 : Shape := ⟨2, ![64, 512]⟩
abbrev S64x1x512x1 : Shape := ⟨4, ![64, 1, 512, 1]⟩
abbrev S64x1x1x512 : Shape := ⟨4, ![64, 1, 1, 512]⟩
abbrev S64x1x512x512 : Shape := ⟨4, ![64, 1, 512, 512]⟩

abbrev nBuf : Space → Nat
  | .hbm => 102
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x2, .i32⟩
  | .hbm, ⟨3, _⟩ => ⟨S64x1, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S64, .i32⟩
  | .hbm, ⟨55, _⟩ => ⟨S512, .i32⟩
  | .hbm, ⟨56, _⟩ => ⟨S1x512, .i32⟩
  | .hbm, ⟨57, _⟩ => ⟨S64x1, .i32⟩
  | .hbm, ⟨58, _⟩ => ⟨S64x512, .i32⟩
  | .hbm, ⟨59, _⟩ => ⟨S64x512, .i32⟩
  | .hbm, ⟨60, _⟩ => ⟨S64x512, .i1⟩
  | .hbm, ⟨61, _⟩ => ⟨S1x512, .i32⟩
  | .hbm, ⟨62, _⟩ => ⟨S64x1, .i32⟩
  | .hbm, ⟨63, _⟩ => ⟨S64x512, .i32⟩
  | .hbm, ⟨64, _⟩ => ⟨S64x512, .i32⟩
  | .hbm, ⟨65, _⟩ => ⟨S64x512, .i1⟩
  | .hbm, ⟨66, _⟩ => ⟨S64x512, .i1⟩
  | .hbm, ⟨67, _⟩ => ⟨S1x512, .i32⟩
  | .hbm, ⟨68, _⟩ => ⟨S64x1, .i32⟩
  | .hbm, ⟨69, _⟩ => ⟨S64x512, .i32⟩
  | .hbm, ⟨70, _⟩ => ⟨S64x512, .i32⟩
  | .hbm, ⟨71, _⟩ => ⟨S64x512, .i1⟩
  | .hbm, ⟨72, _⟩ => ⟨S1x512, .i32⟩
  | .hbm, ⟨73, _⟩ => ⟨S64x1, .i32⟩
  | .hbm, ⟨74, _⟩ => ⟨S64x512, .i32⟩
  | .hbm, ⟨75, _⟩ => ⟨S64x512, .i32⟩
  | .hbm, ⟨76, _⟩ => ⟨S64x512, .i1⟩
  | .hbm, ⟨77, _⟩ => ⟨S64x512, .i1⟩
  | .hbm, ⟨78, _⟩ => ⟨S64x1x512x1, .i1⟩
  | .hbm, ⟨79, _⟩ => ⟨S64x1x1x512, .i1⟩
  | .hbm, ⟨80, _⟩ => ⟨S64x1x512x512, .i1⟩
  | .hbm, ⟨81, _⟩ => ⟨S64x1x512x512, .i1⟩
  | .hbm, ⟨82, _⟩ => ⟨S64x1x512x512, .i1⟩
  | .hbm, ⟨83, _⟩ => ⟨S64x1x512x512, .f32⟩
  | .hbm, ⟨84, _⟩ => ⟨S64x3x512x512, .f32⟩
  | .hbm, ⟨85, _⟩ => ⟨S64x3x512x512, .f32⟩
  | .hbm, ⟨86, _⟩ => ⟨S64x3x512x512, .f32⟩
  | .hbm, ⟨87, _⟩ => ⟨S64x3x512x512, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_c_9 : Ref sig .tc := ⟨.hbm, 41, rfl⟩
abbrev main_v28 : Ref sig .tc := ⟨.hbm, 42, rfl⟩
abbrev main_v29 : Ref sig .tc := ⟨.hbm, 43, rfl⟩
abbrev main_c_10 : Ref sig .tc := ⟨.hbm, 44, rfl⟩
abbrev main_v30 : Ref sig .tc := ⟨.hbm, 45, rfl⟩
abbrev main_v31 : Ref sig .tc := ⟨.hbm, 46, rfl⟩
abbrev main_c_11 : Ref sig .tc := ⟨.hbm, 47, rfl⟩
abbrev main_v32 : Ref sig .tc := ⟨.hbm, 48, rfl⟩
abbrev main_v33 : Ref sig .tc := ⟨.hbm, 49, rfl⟩
abbrev main_c_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S64x512_S64x1x512x1_0_2 : S64x512.BroadcastsInDim S64x1x512x1 (![0, 2] : Fin 2 → Fin S64x1x512x1.rank)
  bcast_S64x512_S64x1x1x512_0_3 : S64x512.BroadcastsInDim S64x1x1x512 (![0, 3] : Fin 2 → Fin S64x1x1x512.rank)
  bcast_S64x1x512x1_S64x1x512x512_0_1_2_3 : S64x1x512x1.BroadcastsInDim S64x1x512x512 (![0, 1, 2, 3] : Fin 4 → Fin S64x1x512x512.rank)
  bcast_S64x1x1x512_S64x1x512x512_0_1_2_3 : S64x1x1x512.BroadcastsInDim S64x1x512x512 (![0, 1, 2, 3] : Fin 4 → Fin S64x1x512x512.rank)
  bcast_S64x1x512x512_S64x3x512x512_0_1_2_3 : S64x1x512x512.BroadcastsInDim S64x3x512x512 (![0, 1, 2, 3] : Fin 4 → Fin S64x3x512x512.rank)
  reducesTo_S64x3x512x512_S_d0_1_2_3 : S64x3x512x512.ReducesTo [0, 1, 2, 3] S_
  h_S_ : 0 < S_.numel

variable [Facts₀]

class Facts : Prop extends Facts₀ where

variable [Facts]
-- ==== Proof.MaskedSums.lean ====
/-
  Sums of extended reals weighted by 0/1 masks.

  A one-bit word `a` is read as the extended real `bitVal a`, which is 0 or 1. Multiplying by such a value
  distributes over any finite sum of extended reals, infinite terms included, because `x * 0 = 0` and `x * 1 = x`
  hold for every extended real. Hence a row mask applied AFTER the sum along a row, over terms already weighted by
  a column mask, gives the same total as weighting each term by the bitwise AND of its row bit and its column bit:
      ∑ c h, (∑ w, d c h w * col w) * row h  =  ∑ c h w, d c h w * (row h AND col w).
  The band test `inBand lo hi n` is the bit "lo ≤ n < hi" over signed 32-bit words, with `n` the position counter.
-/
import Idealize.ShloMosaic.PureOps.Ideal
import Idealize.ShloMosaic.Lib.ValueIdx

noncomputable section

open Idealize.ShloMosaic Idealize.ShloMosaic.ValueIdx

namespace Cert.MaskedSums

/-- A one-bit word as an extended real: its unsigned value, 0 or 1. -/
def bitVal (a : BitVec 1) : EReal := ((a.toNat : ℝ) : EReal)

theorem bit_cases (a : BitVec 1) : a = 0#1 ∨ a = 1#1 := by
  have h : a.toNat < 2 := a.isLt
  rcases (by omega : a.toNat = 0 ∨ a.toNat = 1) with h0 | h1
  · exact Or.inl (BitVec.eq_of_toNat_eq (by simpa using h0))
  · exact Or.inr (BitVec.eq_of_toNat_eq (by simpa using h1))

@[simp] theorem bitVal_zero : bitVal 0#1 = 0 := by simp [bitVal]
@[simp] theorem bitVal_one : bitVal 1#1 = 1 := by simp [bitVal]

/-- The bit read unsigned (a convert from i1) is `bitVal`, by definition. -/
theorem uitofp_bit (a : BitVec 1) : FloatOps.uitofp (F := Ideal) .f32 a = bitVal a := rfl

/-- The bit zero-extended to 32 bits and read SIGNED is the same 0 or 1. -/
theorem sitofp_setWidth_bit (a : BitVec 1) : FloatOps.sitofp (F := Ideal) .f32 (a.setWidth 32) = bitVal a := by
  rcases bit_cases a with rfl | rfl
  · show (((BitVec.setWidth 32 0#1).toInt : ℝ) : EReal) = bitVal 0#1
    rw [show (BitVec.setWidth 32 0#1).toInt = 0 from by decide]; simp
  · show (((BitVec.setWidth 32 1#1).toInt : ℝ) : EReal) = bitVal 1#1
    rw [show (BitVec.setWidth 32 1#1).toInt = 1 from by decide]; simp

/-- The AND of two bits is the product of their values. -/
theorem bitVal_and (a b : BitVec 1) : bitVal (IntOp.andi a b) = bitVal a * bitVal b := by
  rcases bit_cases a with rfl | rfl <;> rcases bit_cases b with rfl | rfl
  · rw [show IntOp.andi 0#1 0#1 = 0#1 from by decide]; simp
  · rw [show IntOp.andi 0#1 1#1 = 0#1 from by decide]; simp
  · rw [show IntOp.andi 1#1 0#1 = 0#1 from by decide]; simp
  · rw [show IntOp.andi 1#1 1#1 = 1#1 from by decide]; simp

/-- A 0/1 factor goes inside a finite sum of extended reals (no finiteness of the terms is needed). -/
theorem sum_mul_bitVal {ι : Type*} [Fintype ι] (g : ι → EReal) (a : BitVec 1) :
    (∑ i, g i) * bitVal a = ∑ i, g i * bitVal a := by
  rcases bit_cases a with rfl | rfl
  · simp
  · simp

/-- The row mask after the row sum, over column-masked terms, is the AND mask term by term. -/
theorem masked_sum {C H W : Type*} [Fintype C] [Fintype H] [Fintype W]
    (d : C → H → W → EReal) (row : H → BitVec 1) (col : W → BitVec 1) :
    ∑ c, ∑ h, (∑ w, d c h w * bitVal (col w)) * bitVal (row h)
      = ∑ c, ∑ h, ∑ w, d c h w * bitVal (IntOp.andi (row h) (col w)) := by
  refine Finset.sum_congr rfl fun c _ => Finset.sum_congr rfl fun h _ => ?_
  rw [sum_mul_bitVal]
  refine Finset.sum_congr rfl fun w _ => ?_
  rw [bitVal_and, mul_assoc, mul_comm (bitVal (col w))]

/-- The bit "lo ≤ n < hi" on signed 32-bit words, `n` given as a counter. -/
def inBand (lo hi : BitVec 32) (n : Nat) : BitVec 1 :=
  IntOp.andi (IntOp.cmpi .sge (BitVec.ofNat 32 n) lo) (IntOp.cmpi .slt (BitVec.ofNat 32 n) hi)

/-- |X - Y| at (batch, channel, row, column), on the extended reals. -/
def absDiffAt (X Y : (⟨4, ![64, 3, 512, 512]⟩ : Shape).Idx → EReal) (b : Fin 64) (c : Fin 3) (h w : Fin 512) : EReal :=
  FloatOps.absf (F := Ideal) (φ := .f32) (FloatOps.subf (F := Ideal) (φ := .f32) (X (ix4 b c h w)) (Y (ix4 b c h w)))

/-- The sum of |X - Y| over the entries inside each batch's row band and column band. -/
def maskedTotal (X Y : (⟨4, ![64, 3, 512, 512]⟩ : Shape).Idx → EReal) (lo hi left right : (⟨1, ![64]⟩ : Shape).Idx → BitVec 32) : EReal :=
  ∑ b : Fin 64, ∑ c : Fin 3, ∑ h : Fin 512, ∑ w : Fin 512,
    absDiffAt X Y b c h w * bitVal (IntOp.andi (inBand (lo (ix1 b)) (hi (ix1 b)) h.val) (inBand (left (ix1 b)) (right (ix1 b)) w.val))

/-- The sum of |X - Y| over all entries. -/
def plainTotal (X Y : (⟨4, ![64, 3, 512, 512]⟩ : Shape).Idx → EReal) : EReal :=
  ∑ b : Fin 64, ∑ c : Fin 3, ∑ h : Fin 512, ∑ w : Fin 512, absDiffAt X Y b c h w

/-- The closing arithmetic both programs apply to the masked total `p` and the plain total `t`, for any float instance:
    (t - p) / n_rest * 1/2 + 1/2 * (p / n_patch), with the four constants as their float words. -/
def lossOf {F : FTy → Type} [FloatOps F] (p t : FVec F ⟨0, ![]⟩ .f32) : FVec F ⟨0, ![]⟩ .f32 :=
  addf (mulf (Host.divf (subf t p) (constant (F := F) ⟨0, ![]⟩ .f32 0x4C394000#32)) (constant (F := F) ⟨0, ![]⟩ .f32 0x3F000000#32))
    (mulf (constant (F := F) ⟨0, ![]⟩ .f32 0x3F000000#32) (Host.divf p (constant (F := F) ⟨0, ![]⟩ .f32 0x49D80000#32)))

end Cert.MaskedSums

end
-- ==== Proof.BodyValue.lean ====
/-
  The body's arithmetic on the extended reals, read entry by entry.

  For one batch the body forms d = |x - y| over (channel, row, column), weights each entry by the column band's
  0/1 mask, sums along the row, weights each row sum by the row band's 0/1 mask, and sums over rows and channels:
  the masked sum. The plain sum is the same chain without masks. Both land in one vector of 128 lanes, lane 0 the
  masked sum and lane 1 the plain sum. Each step below reads one printed operation at an index: a sum along one
  axis is the finite sum over that axis's coordinate, a reshape that adds or drops unit axes keeps the entry, a
  broadcast of a row or a column repeats it, and the band test at position n is the bit "lo ≤ n < hi".
-/
import proofs.«415426_j58841051955399_3_alg».proof.Proof.Gen.KernelIdeal.Skeleton
import proofs.«415426_j58841051955399_3_alg».proof.Proof.MaskedSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Cert.MaskedSums
open Idealize.ShloMosaic Idealize.ShloMosaic.ValueIdx

/-! ## One printed operation at an index -/

/-- The scalar taken out of a one-entry vector viewed 1 × 1 is that entry. -/
theorem extract_one (v : FVec Ideal S1 .f32) (hc : S1.ShapeCasts S1x1) (hp : ∀ a, (![0, 0] : Fin 2 → Nat) a < S1x1.size a) :
    extractAt ![0, 0] (shapeCast S1x1 v hc) hp = v (ix1 (0 : Fin 1)) := by
  unfold extractAt
  exact shapeCast_apply v hc _ (ix1 (0 : Fin 1)) (by rw [Shape.rowMajor_val_one, Shape.rowMajor_val_two]; rfl)

/-- A sum down the three rows of a 3 × 1 column. -/
theorem sum_rows3 (v : FVec Ideal S3x1 .f32) (hr : S3x1.Reduces [0] S1) (hφ : FKind.Formats .f32)
    (hacc : (0x00000000#32 : BitVec 32) = 0x00000000#32) :
    multiReduction .add [0] S1 v 0x00000000#32 hr hφ hacc (ix1 (0 : Fin 1)) = ∑ k : Fin 3, v (ix2 k (0 : Fin 1)) := by
  refine (Ideal.multiReduction_add_single v 0x00000000#32 hr hφ hacc (ix1 (0 : Fin 1))).trans ?_
  refine Finset.sum_congr rfl fun k _ => congrArg v (funext fun a => ?_)
  match a with
  | ⟨0, _⟩ => rfl
  | ⟨1, _⟩ => rfl

/-- A vector of three entries viewed as a 3 × 1 column keeps its entries. -/
theorem column3 (v : FVec Ideal S3 .f32) (hc : S3.ShapeCasts S3x1) (k : Fin 3) :
    shapeCast S3x1 v hc (ix2 k (0 : Fin 1)) = v (ix1 k) :=
  shapeCast_apply v hc _ _ (by
    rw [Shape.rowMajor_val_one, Shape.rowMajor_val_two]
    show k.val = k.val * 1 + 0
    omega)

/-- A sum along the 512 columns of a 3 × 512 array. -/
theorem sum_axis1 (v : FVec Ideal S3x512 .f32) (hr : S3x512.Reduces [1] S3) (hφ : FKind.Formats .f32)
    (hacc : (0x00000000#32 : BitVec 32) = 0x00000000#32) (c : Fin 3) :
    multiReduction .add [1] S3 v 0x00000000#32 hr hφ hacc (ix1 c) = ∑ h : Fin 512, v (ix2 c h) := by
  refine (Ideal.multiReduction_add_single v 0x00000000#32 hr hφ hacc (ix1 c)).trans ?_
  refine Finset.sum_congr rfl fun k _ => congrArg v (funext fun a => ?_)
  match a with
  | ⟨0, _⟩ => rfl
  | ⟨1, _⟩ => rfl

/-- A sum along the last axis of a 3 × 512 × 512 array. -/
theorem sum_axis2 (v : FVec Ideal S3x512x512 .f32) (hr : S3x512x512.Reduces [2] S3x512) (hφ : FKind.Formats .f32)
    (hacc : (0x00000000#32 : BitVec 32) = 0x00000000#32) (c : Fin 3) (h : Fin 512) :
    multiReduction .add [2] S3x512 v 0x00000000#32 hr hφ hacc (ix2 c h) = ∑ w : Fin 512, v (ix3 c h w) := by
  refine (Ideal.multiReduction_add_single v 0x00000000#32 hr hφ hacc (ix2 c h)).trans ?_
  refine Finset.sum_congr rfl fun k _ => congrArg v (funext fun a => ?_)
  match a with
  | ⟨0, _⟩ => rfl
  | ⟨1, _⟩ => rfl
  | ⟨2, _⟩ => rfl

/-- A vector over the rows, laid out as one row and repeated for each channel, reads the row's entry. -/
theorem row_repeat (r : FVec Ideal S512 .f32) (hc : S512.ShapeCasts S1x512) (hb : S1x512.Broadcasts S3x512) (c : Fin 3) (h : Fin 512) :
    broadcastTo S3x512 (shapeCast S1x512 r hc) hb (ix2 c h) = r (ix1 h) := by
  rw [broadcastTo_1b_ab_apply, shapeCast_a_1a_apply]

/-- A vector over the columns, laid out 1 × 1 × 512 and repeated over channels and rows, reads the column's entry. -/
theorem col_repeat (k : FVec Ideal S512 .f32) (hc : S512.ShapeCasts S1x1x512) (hb : S1x1x512.Broadcasts S3x512x512)
    (c : Fin 3) (h w : Fin 512) :
    broadcastTo S3x512x512 (shapeCast S1x1x512 k hc) hb (ix3 c h w) = k (ix1 w) := by
  rw [broadcastTo_apply (shapeCast S1x1x512 k hc) hb (ix3 c h w) (ix3 (0 : Fin 1) (0 : Fin 1) w) (fun a => by
    match a with
    | ⟨0, _⟩ => rfl
    | ⟨1, _⟩ => rfl
    | ⟨2, _⟩ => show w.val = if (512 : Nat) = 1 then 0 else w.val; rw [if_neg (by decide)])]
  exact shapeCast_apply k hc _ _ (by
    rw [Shape.rowMajor_val_one, Shape.rowMajor_val_three]
    show w.val = (0 * 1 + 0) * 512 + w.val
    omega)

/-! ## The band mask -/

/-- The position counter along an axis of 512 entries: entry n is the word n. -/
theorem position_apply (hio : S1x512.Iotas .tc 32 [1]) (hc : S1x512.ShapeCasts S512) (n : Fin 512) :
    shapeCast S512 (iota .tc S1x512 32 [1] hio) hc (ix1 n) = BitVec.ofNat 32 n.val := by
  rw [shapeCast_1a_a_apply, iota_single_apply]

/-- The band mask as the body builds it (compare the counter with both ends, AND, widen, convert): entry n is the
    0/1 value of the bit "lo ≤ n < hi". -/
theorem band_apply (lo hi : BitVec 32) (hio : S1x512.Iotas .tc 32 [1]) (hc : S1x512.ShapeCasts S512) (hlt : 1 < 32) (n : Fin 512) :
    (sitofp .f32 (extui 32 (andi (cmpi .sge (shapeCast S512 (iota .tc S1x512 32 [1] hio) hc) (broadcast S512 lo))
        (cmpi .slt (shapeCast S512 (iota .tc S1x512 32 [1] hio) hc) (broadcast S512 hi))) hlt) : FVec Ideal S512 .f32) (ix1 n)
      = bitVal (inBand lo hi n.val) := by
  show FloatOps.sitofp (F := Ideal) .f32 ((IntOp.andi (IntOp.cmpi .sge (shapeCast S512 (iota .tc S1x512 32 [1] hio) hc (ix1 n)) lo)
      (IntOp.cmpi .slt (shapeCast S512 (iota .tc S1x512 32 [1] hio) hc (ix1 n)) hi)).setWidth 32) = _
  rw [position_apply, sitofp_setWidth_bit]
  rfl

/-! ## The payloads -/

/-- |x - y| at (channel, row, column) of the batch's block. -/
def absDiff (x y : Vec Ideal S1x3x512x512 .f32) (c : Fin 3) (h w : Fin 512) : EReal :=
  FloatOps.absf (F := Ideal) (φ := .f32) (FloatOps.subf (F := Ideal) (φ := .f32) (x (ix4 (0 : Fin 1) c h w)) (y (ix4 (0 : Fin 1) c h w)))

theorem absdiff_apply (x y : Vec Ideal S1x3x512x512 .f32) (c : Fin 3) (h w : Fin 512) :
    k0_pay2 (F := Ideal) x y (ix3 c h w) = absDiff x y c h w := by
  unfold k0_pay2 absDiff
  exact congrArg₂ (fun a b : EReal => FloatOps.absf (F := Ideal) (φ := .f32) (FloatOps.subf (F := Ideal) (φ := .f32) a b))
    (shapeCast_1abc_abc_apply x _ c h w) (shapeCast_1abc_abc_apply y _ c h w)

/-- The plain sum per channel: over rows and columns. -/
theorem plain_apply (x y : Vec Ideal S1x3x512x512 .f32) (c : Fin 3) :
    k0_pay4 (F := Ideal) x y (ix1 c) = ∑ h : Fin 512, ∑ w : Fin 512, absDiff x y c h w := by
  unfold k0_pay4
  dsimp only
  refine (sum_axis1 _ _ _ _ c).trans ?_
  refine Finset.sum_congr rfl fun h _ => ?_
  refine (sum_axis2 _ _ _ _ c h).trans ?_
  exact Finset.sum_congr rfl fun w _ => absdiff_apply x y c h w

/-- The masked sum as the body groups it: the column mask inside the row sum, the row mask on the row sum. -/
theorem masked_apply (lo hi left right : BitVec 32) (x y : Vec Ideal S1x3x512x512 .f32) :
    k0_pay3 (F := Ideal) lo hi left right x y
      = ∑ c : Fin 3, ∑ h : Fin 512, (∑ w : Fin 512, absDiff x y c h w * bitVal (inBand left right w.val)) * bitVal (inBand lo hi h.val) := by
  unfold k0_pay3
  dsimp only
  refine (extract_one _ _ _).trans ?_
  refine (sum_rows3 _ _ _ _).trans ?_
  refine Finset.sum_congr rfl fun c _ => ?_
  refine (column3 _ _ c).trans ?_
  refine (sum_axis1 _ _ _ _ c).trans ?_
  refine Finset.sum_congr rfl fun h _ => ?_
  refine (mulf_apply _ _ _).trans ?_
  refine congrArg₂ (fun a b : EReal => a * b) ?_ ((row_repeat _ _ _ c h).trans (band_apply lo hi _ _ _ h))
  refine (sum_axis2 _ _ _ _ c h).trans ?_
  refine Finset.sum_congr rfl fun w _ => ?_
  refine (mulf_apply _ _ _).trans ?_
  exact congrArg₂ (fun a b : EReal => a * b) (absdiff_apply x y c h w) ((col_repeat _ _ _ c h w).trans (band_apply left right _ _ _ w))

/-- Lane 0 of the stored vector is the first scalar. -/
theorem lane0 (p : Ideal .f32) (q : FVec Ideal S3 .f32) : k0_pay1 (F := Ideal) p q (ix2 (0 : Fin 1) (0 : Fin 128)) = p := by
  unfold k0_pay1
  dsimp only
  rw [select_apply]
  show Scalar.select (IntOp.cmpi .eq (iota .tc S1x128 32 [1] _ (ix2 (0 : Fin 1) (0 : Fin 128))) 0#32) p _ = p
  rw [iota_single_apply]
  show Scalar.select (IntOp.cmpi .eq (BitVec.ofNat 32 0) 0#32) p _ = p
  rw [show IntOp.cmpi .eq (BitVec.ofNat 32 0) 0#32 = 1#1 from by decide, select_one]

/-- Lane 1 of the stored vector is the sum of the three per-channel scalars. -/
theorem lane1 (p : Ideal .f32) (q : FVec Ideal S3 .f32) :
    k0_pay1 (F := Ideal) p q (ix2 (0 : Fin 1) (1 : Fin 128)) = ∑ k : Fin 3, q (ix1 k) := by
  unfold k0_pay1
  dsimp only
  rw [select_apply]
  show Scalar.select (IntOp.cmpi .eq (iota .tc S1x128 32 [1] _ (ix2 (0 : Fin 1) (1 : Fin 128))) 0#32) p
      (select _ _ _ (ix2 (0 : Fin 1) (1 : Fin 128))) = _
  rw [iota_single_apply]
  show Scalar.select (IntOp.cmpi .eq (BitVec.ofNat 32 1) 0#32) p _ = _
  rw [show IntOp.cmpi .eq (BitVec.ofNat 32 1) 0#32 = 0#1 from by decide, select_zero, select_apply]
  show Scalar.select (IntOp.cmpi .eq (iota .tc S1x128 32 [1] _ (ix2 (0 : Fin 1) (1 : Fin 128))) 1#32) _ _ = _
  rw [iota_single_apply]
  show Scalar.select (IntOp.cmpi .eq (BitVec.ofNat 32 1) 1#32) _ _ = _
  rw [show IntOp.cmpi .eq (BitVec.ofNat 32 1) 1#32 = 1#1 from by decide, select_one, broadcast_apply]
  refine (extract_one _ _ _).trans ?_
  refine (sum_rows3 _ _ _ _).trans ?_
  exact Finset.sum_congr rfl fun k _ => column3 q _ k

/-! ## The stored vector -/

section
variable {F : FTy → Type} [FloatOps F]

/-- The vector the body stores at a grid point, from the four table words and the two input blocks. -/
def lanes (lo hi left right : Elt F .i32) (x y : Vec F S1x3x512x512 .f32) : Vec F S1x128 .f32 :=
  k0_pay1 (k0_pay3 lo hi left right x y) (k0_pay4 x y)

end

/-- Lane 0: the sum of |x - y| weighted by the AND of the row band's bit and the column band's bit. -/
theorem lanes_masked (lo hi left right : BitVec 32) (x y : Vec Ideal S1x3x512x512 .f32) :
    lanes (F := Ideal) lo hi left right x y (ix2 (0 : Fin 1) (0 : Fin 128))
      = ∑ c : Fin 3, ∑ h : Fin 512, ∑ w : Fin 512,
          absDiff x y c h w * bitVal (IntOp.andi (inBand lo hi h.val) (inBand left right w.val)) := by
  unfold lanes
  rw [lane0, masked_apply]
  exact masked_sum (fun c h w => absDiff x y c h w) (fun h => inBand lo hi h.val) (fun w => inBand left right w.val)

/-- Lane 1: the plain sum of |x - y|. -/
theorem lanes_plain (lo hi left right : BitVec 32) (x y : Vec Ideal S1x3x512x512 .f32) :
    lanes (F := Ideal) lo hi left right x y (ix2 (0 : Fin 1) (1 : Fin 128))
      = ∑ c : Fin 3, ∑ h : Fin 512, ∑ w : Fin 512, absDiff x y c h w := by
  unfold lanes
  rw [lane1]
  exact Finset.sum_congr rfl fun c _ => plain_apply x y c

end Cert.KernelIdeal.Body

end
-- ==== Proof.BodyPiece.lean ====
/-
  What one grid point leaves in its output block.

  At batch `b` the body reads four words, entry `b` of each of the four crop tables (the row band's two ends
  and the column band's two ends), and the two input blocks, and stores ONE vector of 128 lanes: lane 0 holds the
  masked sum of that batch, lane 1 its unmasked sum, the other lanes zero. This file reads that stored vector back as
  the body's arithmetic applied to those four words and the two blocks, for any float instance.
-/
import proofs.«415426_j58841051955399_3_alg».proof.Proof.FrameKernelIdeal
import proofs.«415426_j58841051955399_3_alg».proof.Proof.BodyValue
import Idealize.ShloMosaic.Lib.Pipeline.Value
import Idealize.ShloMosaic.Lib.ValueIdx

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Body (lanes)

variable {F : FTy → Type} [FloatOps F]

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- A load of the one word of a 64-entry table at the grid coordinate reads the table's entry there: the offset
    is the coordinate, a number below 64, passed through a 32-bit word unchanged. -/
theorem ld_word (f : S64.Idx → Elt F .i32) (i : grid0.Coords) (inb : ∀ a, (k0_off1 i) a + S1.size a ≤ S64.size a)
    (h : 0 < (Rect.unit (s := S64) (k0_off1 i) S1.size inb).shape.numel) :
    View.ld f (Rect.unit (s := S64) (k0_off1 i) S1.size inb) (Shape.Idx.first h) = f (ix1 (i 0)) := by
  show f _ = f _
  congr 1
  funext a
  match a with
  | ⟨0, _⟩ =>
    apply Fin.ext
    have hi : (i 0).val < 64 := (i 0).isLt
    show (BitVec.ofNat 32 (i 0).val).toNat + 1 * 0 = (i 0).val
    rw [BitVec.toNat_ofNat, Nat.mod_eq_of_lt (by omega)]
    omega

/-- What the run leaves in the output's staging buffer is `lanes` of the tables' entries at the point and the
    two input blocks: the run's one store covers the block, and its payload is that term. -/
theorem out_eq_lanes (c : Dev nD) (i : grid0.Coords) (arg5 : Memref sig .tc .vmem S1x3x512x512 .f32) (harg5 : arg5.IsWhole)
    (arg6 : Memref sig .tc .vmem S1x3x512x512 .f32) (harg6 : arg6.IsWhole) (arg7 : Memref sig .tc .vmem S1x128 .f32) (harg7 : arg7.IsWhole)
    (x0 : Vec F S1x3x512x512 .f32) (x1 : Vec F S1x3x512x512 .f32)
    (xt0 : TbBuf0 (F := F) c tbM0_0) (xt1 : TbBuf0 (F := F) c tbM0_1) (xt2 : TbBuf0 (F := F) c tbM0_2) (xt3 : TbBuf0 (F := F) c tbM0_3) :
    out0_A_2 c i arg5 harg5 arg6 harg6 arg7 harg7 x0 x1 xt0 xt1 xt2 xt3
      = lanes ((xt0 : S64.Idx → Elt F .i32) (ix1 (i 0))) ((xt1 : S64.Idx → Elt F .i32) (ix1 (i 0)))
          ((xt2 : S64.Idx → Elt F .i32) (ix1 (i 0))) ((xt3 : S64.Idx → Elt F .i32) (ix1 (i 0))) x0 x1 := by
  unfold out0_A_2
  rw [View.read_writes_eq_canon _ _ _ (cover0_A_2 c i arg5 harg5 arg6 harg6 arg7 harg7 x0 x1 xt0 xt1 xt2 xt3)]
  unfold kernelRun0_A
  dsimp only
  sl_unfold_words
  rw [View.canon_unit_zero zeros2]
  simp only [View.readAt_eq_ld, harg5.read_unread, harg6.read_unread, View.ld_unit_zero (S := S1x3x512x512) zeros4]
  show k0_pay1 (k0_pay3
      (View.ld (View.read (Elt F) (View.whole main_v17) xt0) (Rect.unit (s := S64) (k0_off1 i) S1.size _) (Shape.Idx.first _))
      (View.ld (View.read (Elt F) (View.whole main_v18) xt1) (Rect.unit (s := S64) (k0_off1 i) S1.size _) (Shape.Idx.first _))
      (View.ld (View.read (Elt F) (View.whole main_v36) xt2) (Rect.unit (s := S64) (k0_off1 i) S1.size _) (Shape.Idx.first _))
      (View.ld (View.read (Elt F) (View.whole main_v37) xt3) (Rect.unit (s := S64) (k0_off1 i) S1.size _) (Shape.Idx.first _))
      x0 x1) (k0_pay4 x0 x1) = _
  rw [ld_word, ld_word, ld_word, ld_word]
  rfl

end Cert.KernelIdeal.GenP

end
-- ==== Proof.KernelArray.lean ====
/-
  The output array after the pallas_call, as one function of the region-entry arrays.

  The output is one row of 8192 entries; grid point t (= batch t) writes back the 128 entries [128 t, 128 t + 128).
  The 64 blocks tile the row, each written once, so entry j of the row ends holding lane j % 128 of what point
  j / 128 stored.
-/
import proofs.«415426_j58841051955399_3_alg».proof.Proof.BodyPiece

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- The output window's block index at grid point t is (0, t), decided over the 64 points. -/
theorem out_index : ∀ t : Fin grid0.N, cc0_transform_2 (grid0.coords t) (0 : Fin 2) = 0 ∧ cc0_transform_2 (grid0.coords t) (1 : Fin 2) = t.val :=
  (by decide +kernel : ∀ t : Fin grid0.N, _)

/-- The grid has 64 points, one per batch. -/
theorem points_eq (hO : Ok m) : (cfgM m hO).N = 64 := by
  show grid0.N = 64
  decide +kernel

/-- Batch k as a grid point. -/
def pt (hO : Ok m) (k : Nat) (hk : k < 64) : Fin (cfgM m hO).N := ⟨k, (points_eq m hO).symm ▸ hk⟩

/-- Entry j of the output row: lane j % 128 of what point j / 128 stored. -/
def outArr (hO : Ok m) (c : Dev nD) : S1x8192.Idx → Elt F .f32 := fun j =>
  outsAt0 m hO c (pt m hO ((j 1).val / 128) (by have h : (j 1).val < 8192 := (j 1).isLt; omega))
    (ix2 (0 : Fin 1) (⟨(j 1).val % 128, Nat.mod_lt _ (by decide)⟩ : Fin 128))

/-- Where entry y of point t's block sits in the row: (0, 128 t + y). -/
theorem emb_val (hO : Ok m) (t : Fin (cfgM m hO).N) (y : S1x128.Idx) :
    ((((cfgM m hO).win 2).blk t).view.emb y (0 : Fin 2)).val = 0
      ∧ ((((cfgM m hO).win 2).blk t).view.emb y (1 : Fin 2)).val = t.val * 128 + (y 1).val := by
  obtain ⟨e0, e1⟩ := out_index t
  have hy0 : (y 0).val < 1 := (y 0).isLt
  constructor
  · show cc0_transform_2 (grid0.coords t) (0 : Fin 2) * 1 + 1 * (y 0).val = 0
    rw [e0]; omega
  · show cc0_transform_2 (grid0.coords t) (1 : Fin 2) * 128 + 1 * (y 1).val = t.val * 128 + (y 1).val
    rw [e1]; omega

/-- What point t writes back is block t of that row. -/
theorem flushed_eq (hO : Ok m) (c : Dev nD) (t : Fin (cfgM m hO).N) :
    (dats m hO 0 c).flushed 2 t = (((cfgM m hO).win 2).blk t).view.read (Elt F) (outArr m hO c) := by
  show ((cfgM m hO).win 2).cut (grid0.coords t) ((dats m hO 0 c).after 2 t) = _
  rw [after0_2]
  refine funext fun (y : S1x128.Idx) => ?_
  obtain ⟨-, e1⟩ := emb_val m hO t y
  have hy0 : (y 0).val < 1 := (y 0).isLt
  have hy1 : (y 1).val < 128 := (y 1).isLt
  have key : ∀ (t' : Fin (cfgM m hO).N) (l l' : S1x128.Idx), t' = t → l = l' →
      outsAt0 m hO c t l' = outsAt0 m hO c t' l := by
    rintro _ _ _ rfl rfl; rfl
  refine key _ _ _ (Fin.ext ?_) (funext fun a => ?_)
  · show ((((cfgM m hO).win 2).blk t).view.emb y (1 : Fin 2)).val / 128 = t.val
    rw [e1]; omega
  · match a with
    | ⟨0, _⟩ => exact Fin.ext (by show 0 = (y 0).val; omega)
    | ⟨1, _⟩ => exact Fin.ext (by
        show ((((cfgM m hO).win 2).blk t).view.emb y (1 : Fin 2)).val % 128 = (y 1).val
        rw [e1]; omega)

/-- Every entry of the row is in the block of point j / 128. -/
theorem cover (hO : Ok m) (i : S1x8192.Idx) :
    ∃ t : Fin (cfgM m hO).N, ((cfgM m hO).win 2).flush t = true ∧ i ∈ (((cfgM m hO).win 2).blk t).view.set := by
  have hi0 : (i 0).val < 1 := (i 0).isLt
  have hi1 : (i 1).val < 8192 := (i 1).isLt
  have hk : (i 1).val / 128 < 64 := by omega
  have hl : (i 1).val % 128 < 128 := Nat.mod_lt _ (by decide)
  refine ⟨pt m hO ((i 1).val / 128) hk, flush0_2 (adm m hO) _, ?_⟩
  obtain ⟨e0, e1⟩ := emb_val m hO (pt m hO ((i 1).val / 128) hk) (ix2 (0 : Fin 1) (⟨(i 1).val % 128, hl⟩ : Fin 128))
  have mem_of_eq : ∀ (t : Fin (cfgM m hO).N) (y : S1x128.Idx) (j : S1x8192.Idx),
      j = (((cfgM m hO).win 2).blk t).view.emb y → j ∈ (((cfgM m hO).win 2).blk t).view.set := by
    rintro t y _ rfl; exact View.emb_mem_set _ _
  refine mem_of_eq _ (ix2 (0 : Fin 1) (⟨(i 1).val % 128, hl⟩ : Fin 128)) i (funext fun a => ?_)
  match a with
  | ⟨0, _⟩ => exact Fin.ext ((by omega : (i 0).val = 0).trans e0.symm)
  | ⟨1, _⟩ => exact Fin.ext ((by show (i 1).val = (i 1).val / 128 * 128 + (i 1).val % 128; omega :
      (i 1).val = (pt m hO ((i 1).val / 128) hk).val * 128 + ((ix2 (0 : Fin 1) (⟨(i 1).val % 128, hl⟩ : Fin 128)) 1).val).trans e1.symm)

/-- The output array after the last point is that row. -/
theorem final_out (hO : Ok m) (c : Dev nD) : (dats m hO 0 c).arrAt 2 (cfgM m hO).N = outArr m hO c :=
  (dats m hO 0 c).arrAt_eq_of_cover 2 (outArr m hO c) (fun t _ => flushed_eq m hO c t) (cover m hO)

end Cert.KernelIdeal.GenP

end
-- ==== Proof.LibSumIdx.lean ====
/-
  A sum over the index set of an array of rank 1, 3 or 4 is the nested sum over its coordinates.

  The index set of a shape [n0, …, nk] is in bijection with the product of the coordinate ranges Fin n0 × … × Fin nk
  (an index is the tuple of its coordinates), so a sum over it in any commutative monoid is the iterated sum, one
  coordinate at a time, outermost axis first. The library states this for rank 2; these are the other ranks, in the same form.
-/
import Idealize.ShloMosaic.Lib.ValueIdx

open scoped BigOperators

namespace Idealize.ShloMosaic.ValueIdx

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

/-- A sum over a rank-1 index set is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.KernelTail.lean ====
/-
  The kernel program's result, from the output row.

  After the pallas_call the host views the row of 8192 entries as 64 × 128, takes column 0 and column 1 (lane 0 and
  lane 1 of every batch's block), sums each over the 64 batches, and applies the closing arithmetic. So the result is
  the closing arithmetic of (0 + sum over batches of the masked sums) and (0 + sum over batches of the plain sums).
-/
import proofs.«415426_j58841051955399_3_alg».proof.Proof.KernelArray
import proofs.«415426_j58841051955399_3_alg».proof.Proof.LibSumIdx
import Idealize.ShloMosaic.Lib.StableHlo.Run

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.MaskedSums
open Idealize.ShloMosaic.StableHlo

variable {F : FTy → Type} [FloatOps F]

/-- Column `col` of the output row viewed 64 × 128, as a vector over the batches. -/
def column (A : S1x8192.Idx → Elt F .f32) (col : Fin 2 → Nat) (hs : S64x128.Slices col S64x1) : FVec F S64 .f32 :=
  shapeCast S64 (extractStridedSlice S64x1 col (shapeCast S64x128 A shapeCasts_S1x8192_S64x128) hs) shapeCasts_S64x1_S64

/-- The program's result from the output row: the closing arithmetic of the two column sums. -/
def resultOf (A : S1x8192.Idx → Elt F .f32) : FVec F S_ .f32 :=
  lossOf (Host.reduceAdd (column A ![0, 0] slices_S64x128_S64x1_0_0) (constant (F := F) S_ .f32 0x00000000#32) reducesTo_S64_S_d0 h_S_)
    (Host.reduceAdd (column A ![0, 1] slices_S64x128_S64x1_0_1) (constant (F := F) S_ .f32 0x00000000#32) reducesTo_S64_S_d0 h_S_)

variable (m : (ℓ : Loc nD τ sig) → Buf (Elt F) ℓ)

set_option maxHeartbeats 1000000 in
/-- The host lines after the region, run from ANY buffer contents W, leave in the result buffer the closing
    arithmetic of the two column sums of what W holds in the output row. -/
theorem tail_of (W : Valuation τ sig (Elt F)) :
    StableHlo.after hostOps1 W (Proc.devRef .tc main_v51) = resultOf (W (Proc.devRef .tc main_v38)) := by
  after_results
  rfl

/-- What the host lines after the region leave in the result buffer. -/
theorem tail_eq (hO : Ok m) (c : Dev nD) :
    Pipeline.afterTail pcfgs (fun _ => adm m hO) (dats m hO) 0 (V0 m) [hostOps1] c main_v51 = resultOf (outArr m hO c) := by
  unfold Pipeline.afterTail
  show StableHlo.after hostOps1 _ (Proc.devRef .tc main_v51) = _
  rw [tail_of]
  exact congrArg resultOf ((Pipeline.withArrays_arr spec0 winFacts0.arr_inj c _ _ 2).trans (final_out m hO c))

variable (ρ : Dev nD → PrngReg)

/-- The frame run re-posted: the result buffer at the closing arithmetic of the output row's two column sums, the
    three arguments unchanged. -/
theorem run_value (hO : Ok m) : θ_run defs (onTc (τ := τ) (main (F := F))) ⟨m, fun _ => 0, ρ⟩ (fun r => ∀ c : Dev nD,
      r.2.mem ((c.tc : Thread nD τ).loc main_v51) = resultOf (outArr m hO c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v51 (by decide : main_v51 ∈ Pipeline.restRefs sig spec0)).trans (tail_eq m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (W_main_arg2 m hO (dats m hO) c)⟩)
    (run_main m ρ hO)

/-! ## The two column sums on the extended reals -/

/-- The input windows' block index at grid point t is (t, 0, 0, 0), and the point's grid coordinate is t. -/
theorem in_index : ∀ t : Fin grid0.N, (grid0.coords t (0 : Fin 1)).val = t.val
    ∧ cc0_transform_0 (grid0.coords t) (0 : Fin 4) = t.val ∧ cc0_transform_0 (grid0.coords t) (1 : Fin 4) = 0
    ∧ cc0_transform_0 (grid0.coords t) (2 : Fin 4) = 0 ∧ cc0_transform_0 (grid0.coords t) (3 : Fin 4) = 0
    ∧ cc0_transform_1 (grid0.coords t) (0 : Fin 4) = t.val ∧ cc0_transform_1 (grid0.coords t) (1 : Fin 4) = 0
    ∧ cc0_transform_1 (grid0.coords t) (2 : Fin 4) = 0 ∧ cc0_transform_1 (grid0.coords t) (3 : Fin 4) = 0 :=
  (by decide +kernel : ∀ t : Fin grid0.N, _)

/-- Column `cn` of the row viewed 64 × 128, at batch k, is entry 128 k + cn of the row. -/
theorem column_apply (A : S1x8192.Idx → Elt F .f32) (cn : Nat) (hcn : cn < 128) (hs : S64x128.Slices ![0, cn] S64x1) (k : Fin 64) :
    column A ![0, cn] hs (ix1 k) = A (ix2 (0 : Fin 1) (⟨128 * k.val + cn, by have := k.isLt; omega⟩ : Fin 8192)) := by
  unfold column
  rw [shapeCast_apply _ shapeCasts_S64x1_S64 (ix1 k) (ix2 k (0 : Fin 1)) (by
    rw [Shape.rowMajor_val_two, Shape.rowMajor_val_one]; show k.val * 1 + 0 = k.val; omega)]
  rw [extractStridedSlice_apply ![0, cn] _ hs (ix2 k (0 : Fin 1)) (ix2 k (⟨cn, hcn⟩ : Fin 128)) (fun a => match a with
    | ⟨0, _⟩ => by show k.val = 0 + k.val; omega
    | ⟨1, _⟩ => by show cn = cn + 0; omega)]
  exact shapeCast_apply A shapeCasts_S1x8192_S64x128 _ _ (by
    rw [Shape.rowMajor_val_two, Shape.rowMajor_val_two]
    show 0 * 8192 + (128 * k.val + cn) = k.val * 128 + cn
    omega)

/-- Entry 128 k + l of the row is lane l of what point k stored. -/
theorem outArr_apply (hO : Ok m) (c : Dev nD) (k : Fin 64) (l : Nat) (hl : l < 128) :
    outArr m hO c (ix2 (0 : Fin 1) (⟨128 * k.val + l, by have := k.isLt; omega⟩ : Fin 8192))
      = outsAt0 m hO c (pt m hO k.val k.isLt) (ix2 (0 : Fin 1) (⟨l, hl⟩ : Fin 128)) := by
  unfold outArr
  have hk : k.val < 64 := k.isLt
  have key : ∀ (t t' : Fin (cfgM m hO).N) (y y' : S1x128.Idx), t = t' → y = y' → outsAt0 m hO c t y = outsAt0 m hO c t' y' := by
    rintro _ _ _ _ rfl rfl; rfl
  refine key _ _ _ _ (Fin.ext ?_) (funext fun a => ?_)
  · show (128 * k.val + l) / 128 = k.val
    omega
  · match a with
    | ⟨0, _⟩ => rfl
    | ⟨1, _⟩ => exact Fin.ext (by show (128 * k.val + l) % 128 = l; omega)

/-- What point t stored is the body's vector of the tables' entries at t and the two blocks at t. -/
theorem outsAt_eq (hO : Ok m) (c : Dev nD) (t : Fin (cfgM m hO).N) :
    outsAt0 m hO c t = Body.lanes ((tbl m 0 : S64.Idx → Elt F .i32) (ix1 (grid0.coords t 0)))
      ((tbl m 1 : S64.Idx → Elt F .i32) (ix1 (grid0.coords t 0))) ((tbl m 2 : S64.Idx → Elt F .i32) (ix1 (grid0.coords t 0)))
      ((tbl m 3 : S64.Idx → Elt F .i32) (ix1 (grid0.coords t 0))) (iblk m hO c 0 t) (iblk m hO c 1 t) := by
  unfold outsAt0
  exact out_eq_lanes c _ _ _ _ _ _ _ _ _ _ _ _ _

/-- At batch k's point, with the tables read at k. -/
theorem outsAt_pt (hO : Ok m) (c : Dev nD) (k : Fin 64) :
    outsAt0 m hO c (pt m hO k.val k.isLt) = Body.lanes ((tbl m 0 : S64.Idx → Elt F .i32) (ix1 k))
      ((tbl m 1 : S64.Idx → Elt F .i32) (ix1 k)) ((tbl m 2 : S64.Idx → Elt F .i32) (ix1 k))
      ((tbl m 3 : S64.Idx → Elt F .i32) (ix1 k)) (iblk m hO c 0 (pt m hO k.val k.isLt)) (iblk m hO c 1 (pt m hO k.val k.isLt)) := by
  have e : (ix1 (grid0.coords (pt m hO k.val k.isLt) 0) : S64.Idx) = ix1 k := by
    obtain ⟨e, -⟩ := in_index (pt m hO k.val k.isLt)
    funext a
    match a with
    | ⟨0, _⟩ => exact Fin.ext e
  exact (outsAt_eq m hO c _).trans (congrArg (fun I : S64.Idx =>
    Body.lanes ((tbl m 0 : S64.Idx → Elt F .i32) I) ((tbl m 1 : S64.Idx → Elt F .i32) I) ((tbl m 2 : S64.Idx → Elt F .i32) I)
      ((tbl m 3 : S64.Idx → Elt F .i32) I) (iblk m hO c 0 (pt m hO k.val k.isLt)) (iblk m hO c 1 (pt m hO k.val k.isLt))) e)

end Cert.KernelIdeal.GenP

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.MaskedSums

variable (m : (ℓ : Loc nD τ sig) → Buf (Elt Ideal) ℓ)

/-- Batch k's block of an input array, read at (0, ch, h, w), is the array at (k, ch, h, w). -/
theorem iblk0_apply (hO : Ok m) (c : Dev nD) (k : Fin 64) (ch : Fin 3) (h w : Fin 512) :
    iblk m hO c 0 (pt m hO k.val k.isLt) (ix4 (0 : Fin 1) ch h w) = V m c main_arg0 (ix4 k ch h w) := by
  obtain ⟨-, e0, e1, e2, e3, -⟩ := in_index (pt m hO k.val k.isLt)
  show V m c main_arg0 ((((cfgM m hO).win 0).blk (pt m hO k.val k.isLt)).view.emb (ix4 (0 : Fin 1) ch h w)) = _
  refine congrArg (V m c main_arg0) (funext fun a => ?_)
  match a with
  | ⟨0, _⟩ => exact Fin.ext (by
      show cc0_transform_0 (grid0.coords (pt m hO k.val k.isLt)) (0 : Fin 4) * 1 + 1 * 0 = k.val
      rw [e0]; show k.val * 1 + 1 * 0 = k.val; omega)
  | ⟨1, _⟩ => exact Fin.ext (by
      show cc0_transform_0 (grid0.coords (pt m hO k.val k.isLt)) (1 : Fin 4) * 3 + 1 * ch.val = ch.val
      rw [e1]; omega)
  | ⟨2, _⟩ => exact Fin.ext (by
      show cc0_transform_0 (grid0.coords (pt m hO k.val k.isLt)) (2 : Fin 4) * 512 + 1 * h.val = h.val
      rw [e2]; omega)
  | ⟨3, _⟩ => exact Fin.ext (by
      show cc0_transform_0 (grid0.coords (pt m hO k.val k.isLt)) (3 : Fin 4) * 512 + 1 * w.val = w.val
      rw [e3]; omega)

theorem iblk1_apply (hO : Ok m) (c : Dev nD) (k : Fin 64) (ch : Fin 3) (h w : Fin 512) :
    iblk m hO c 1 (pt m hO k.val k.isLt) (ix4 (0 : Fin 1) ch h w) = V m c main_arg1 (ix4 k ch h w) := by
  obtain ⟨-, -, -, -, -, e0, e1, e2, e3⟩ := in_index (pt m hO k.val k.isLt)
  show V m c main_arg1 ((((cfgM m hO).win 1).blk (pt m hO k.val k.isLt)).view.emb (ix4 (0 : Fin 1) ch h w)) = _
  refine congrArg (V m c main_arg1) (funext fun a => ?_)
  match a with
  | ⟨0, _⟩ => exact Fin.ext (by
      show cc0_transform_1 (grid0.coords (pt m hO k.val k.isLt)) (0 : Fin 4) * 1 + 1 * 0 = k.val
      rw [e0]; show k.val * 1 + 1 * 0 = k.val; omega)
  | ⟨1, _⟩ => exact Fin.ext (by
      show cc0_transform_1 (grid0.coords (pt m hO k.val k.isLt)) (1 : Fin 4) * 3 + 1 * ch.val = ch.val
      rw [e1]; omega)
  | ⟨2, _⟩ => exact Fin.ext (by
      show cc0_transform_1 (grid0.coords (pt m hO k.val k.isLt)) (2 : Fin 4) * 512 + 1 * h.val = h.val
      rw [e2]; omega)
  | ⟨3, _⟩ => exact Fin.ext (by
      show cc0_transform_1 (grid0.coords (pt m hO k.val k.isLt)) (3 : Fin 4) * 512 + 1 * w.val = w.val
      rw [e3]; omega)

/-- |x - y| over batch k's two blocks is |X - Y| of the arrays at batch k. -/
theorem absDiff_blocks (hO : Ok m) (c : Dev nD) (k : Fin 64) (ch : Fin 3) (h w : Fin 512) :
    Body.absDiff (iblk m hO c 0 (pt m hO k.val k.isLt)) (iblk m hO c 1 (pt m hO k.val k.isLt)) ch h w
      = absDiffAt (V m c main_arg0) (V m c main_arg1) k ch h w := by
  unfold Body.absDiff absDiffAt
  rw [iblk0_apply, iblk1_apply]

/-- The result: the closing arithmetic of zero plus the masked total and zero plus the plain total, over the
    region-entry arrays and the four tables. -/
theorem result_value (hO : Ok m) (c : Dev nD) :
    resultOf (outArr m hO c)
      = lossOf (fun _ => (0 : EReal) + maskedTotal (V m c main_arg0) (V m c main_arg1) (tbl m 0) (tbl m 1) (tbl m 2) (tbl m 3))
          (fun _ => (0 : EReal) + plainTotal (V m c main_arg0) (V m c main_arg1)) := by
  unfold resultOf
  refine congrArg₂ lossOf (funext fun i => ?_) (funext fun i => ?_)
  · simp only [Host.reduceAdd, Ideal.hostReduceAdd_def]
    rw [Ideal.hostReduceAdd_total reducesTo_S64_S_d0 (fun b => b.elim0) _ _ i, sum_idx1]
    unfold maskedTotal
    refine congrArg₂ (fun a b : EReal => a + b) Ideal.ofBits_zero_f32 (Finset.sum_congr rfl fun k _ => ?_)
    refine (column_apply (outArr m hO c) 0 (by decide) _ k).trans ?_
    refine (outArr_apply m hO c k 0 (by decide)).trans ?_
    refine (congrFun (outsAt_pt m hO c k) _).trans ?_
    refine (Body.lanes_masked _ _ _ _ _ _).trans ?_
    exact Finset.sum_congr rfl fun ch _ => Finset.sum_congr rfl fun h _ => Finset.sum_congr rfl fun w _ =>
      congrArg₂ (fun a b : EReal => a * b) (absDiff_blocks m hO c k ch h w) rfl
  · simp only [Host.reduceAdd, Ideal.hostReduceAdd_def]
    rw [Ideal.hostReduceAdd_total reducesTo_S64_S_d0 (fun b => b.elim0) _ _ i, sum_idx1]
    unfold plainTotal
    refine congrArg₂ (fun a b : EReal => a + b) Ideal.ofBits_zero_f32 (Finset.sum_congr rfl fun k _ => ?_)
    refine (column_apply (outArr m hO c) 1 (by decide) _ k).trans ?_
    refine (outArr_apply m hO c k 1 (by decide)).trans ?_
    refine (congrFun (outsAt_pt m hO c k) _).trans ?_
    refine (Body.lanes_plain _ _ _ _ _ _).trans ?_
    exact Finset.sum_congr rfl fun ch _ => Finset.sum_congr rfl fun h _ => Finset.sum_congr rfl fun w _ =>
      absDiff_blocks m hO c k ch h w

end Cert.KernelIdeal.GenP

end
-- ==== Proof.Tables.lean ====
/-
  The crop tables are the same on both sides.

  Both programs compute, from the position array, the row band's two ends and the column band's two ends per batch by
  the same integer operations (shift by 48 either way, clamp to [0, 511], give back what the clamp cut off); the kernel
  program then places the four vectors in scalar memory as prefetched tables. So the tables the body reads are the
  reference's own intermediate vectors of the same position array, word for word and on any float instance.
-/
import proofs.«415426_j58841051955399_3_alg».proof.Proof.FrameKernelIdeal
import proofs.«415426_j58841051955399_3_alg».proof.Proof.Gen.ReferenceIdeal.Read
import Idealize.ShloMosaic.Lib.StableHlo.Run

set_option maxRecDepth 16384

noncomputable section

namespace Cert.KernelIdeal.GenP

open Cert.KernelIdeal.Gen
open Idealize.ShloMosaic Idealize.ShloMosaic.TcCoe Idealize.SL.Sem
open Idealize.ShloMosaic.StableHlo

variable {F : FTy → Type} [FloatOps F]

set_option maxHeartbeats 1000000 in
/-- The host lines before the region, run from any buffer contents W, leave in the four table buffers the
    reference's four band-end vectors of what W holds in the position array. -/
theorem tables_of (W : Valuation τ sig (Elt F)) :
    StableHlo.after hostOps0 W (Proc.devRef .tc main_v17) = Cert.ReferenceIdeal.Read.val_main_v17 (F := F) (W (Proc.devRef .tc main_arg2))
    ∧ StableHlo.after hostOps0 W (Proc.devRef .tc main_v18) = Cert.ReferenceIdeal.Read.val_main_v18 (F := F) (W (Proc.devRef .tc main_arg2))
    ∧ StableHlo.after hostOps0 W (Proc.devRef .tc main_v36) = Cert.ReferenceIdeal.Read.val_main_v36 (F := F) (W (Proc.devRef .tc main_arg2))
    ∧ StableHlo.after hostOps0 W (Proc.devRef .tc main_v37) = Cert.ReferenceIdeal.Read.val_main_v37 (F := F) (W (Proc.devRef .tc main_arg2)) := by
  refine ⟨?_, ?_, ?_, ?_⟩
  · after_results_simp; rfl
  · after_results_simp; rfl
  · after_results_simp; rfl
  · after_results_simp; rfl

variable (m : (ℓ : Loc nD τ sig) → Buf (Elt F) ℓ)

/-- The row band's lower ends. -/
theorem tbl_lo : tbl m 0 = Cert.ReferenceIdeal.Read.val_main_v17 (F := F) (m (((0 : Dev nD) : Thread nD τ).loc main_arg2)) :=
  (tables_of (fun b => m ((0 : Dev nD), b))).1
/-- The row band's upper ends. -/
theorem tbl_hi : tbl m 1 = Cert.ReferenceIdeal.Read.val_main_v18 (F := F) (m (((0 : Dev nD) : Thread nD τ).loc main_arg2)) :=
  (tables_of (fun b => m ((0 : Dev nD), b))).2.1
/-- The column band's lower ends. -/
theorem tbl_left : tbl m 2 = Cert.ReferenceIdeal.Read.val_main_v36 (F := F) (m (((0 : Dev nD) : Thread nD τ).loc main_arg2)) :=
  (tables_of (fun b => m ((0 : Dev nD), b))).2.2.1
/-- The column band's upper ends. -/
theorem tbl_right : tbl m 3 = Cert.ReferenceIdeal.Read.val_main_v37 (F := F) (m (((0 : Dev nD) : Thread nD τ).loc main_arg2)) :=
  (tables_of (fun b => m ((0 : Dev nD), b))).2.2.2

end Cert.KernelIdeal.GenP

end
-- ==== Proof.RefValue.lean ====
/-
  The reference's two sums, as the shared totals.

  The reference builds, for every batch b, the row band's bits over (b, h) and the column band's bits over (b, w) by
  comparing a position counter with the two ends taken from the crop tables, spreads both over [64, 1, 512, 512], ANDs
  them, converts the bit to a float, spreads it over the channels and multiplies |x - y| by it. Read at an index
  (b, c, h, w) this is |x - y| times the 0/1 value of "row bit AND column bit"; the sum over the whole index set is
  the fourfold sum over the coordinates. The second sum is the same without the mask.
-/
import proofs.«415426_j58841051955399_3_alg».proof.Proof.Gen.ReferenceIdeal.Read
import proofs.«415426_j58841051955399_3_alg».proof.Proof.MaskedSums
import proofs.«415426_j58841051955399_3_alg».proof.Proof.LibSumIdx

set_option maxRecDepth 16384

noncomputable section

namespace Cert.ReferenceIdeal.RefValue

open Cert.ReferenceIdeal Cert.ReferenceIdeal.Gen Cert.ReferenceIdeal.Read Cert.MaskedSums
open Idealize.ShloMosaic Idealize.ShloMosaic.ValueIdx

variable {F : FTy → Type} [FloatOps F]

/-! ## Where the spread-out tables and counters are read -/

theorem idx_lo (b : Fin 64) (n : Fin 512) : idx_main_v40 (idx_main_v42 (ix2 b n)) = ix1 b :=
  funext fun a => match a with | ⟨0, _⟩ => rfl
theorem idx_hi (b : Fin 64) (n : Fin 512) : idx_main_v45 (idx_main_v47 (ix2 b n)) = ix1 b :=
  funext fun a => match a with | ⟨0, _⟩ => rfl
theorem idx_left (b : Fin 64) (n : Fin 512) : idx_main_v51 (idx_main_v53 (ix2 b n)) = ix1 b :=
  funext fun a => match a with | ⟨0, _⟩ => rfl
theorem idx_right (b : Fin 64) (n : Fin 512) : idx_main_v56 (idx_main_v58 (ix2 b n)) = ix1 b :=
  funext fun a => match a with | ⟨0, _⟩ => rfl

/-- The row band's bit at (batch b, position n). -/
theorem row_bit (x2 : (⟨S64x2, .i32⟩ : BufTy).Contents (Elt F)) (b : Fin 64) (n : Fin 512) :
    val_main_v49 (F := F) x2 (ix2 b n)
      = inBand (val_main_v17 (F := F) x2 (ix1 b)) (val_main_v18 (F := F) x2 (ix1 b)) n.val := by
  rw [val_main_v49_apply, val_main_v43_apply, val_main_v48_apply, val_main_v41_apply, val_main_v42_apply, val_main_v39_apply,
    val_main_v40_apply, val_main_v46_apply, val_main_v47_apply, val_main_v44_apply, val_main_v45_apply, val_main_v38_apply, idx_lo, idx_hi]
  rfl

/-- The column band's bit at (batch b, position n). -/
theorem col_bit (x2 : (⟨S64x2, .i32⟩ : BufTy).Contents (Elt F)) (b : Fin 64) (n : Fin 512) :
    val_main_v60 (F := F) x2 (ix2 b n)
      = inBand (val_main_v36 (F := F) x2 (ix1 b)) (val_main_v37 (F := F) x2 (ix1 b)) n.val := by
  rw [val_main_v60_apply, val_main_v54_apply, val_main_v59_apply, val_main_v52_apply, val_main_v53_apply, val_main_v50_apply,
    val_main_v51_apply, val_main_v57_apply, val_main_v58_apply, val_main_v55_apply, val_main_v56_apply, val_main_v38_apply, idx_left, idx_right]
  rfl

theorem idx_mask_row (b : Fin 64) (c : Fin 3) (h w : Fin 512) :
    idx_main_v61 (idx_main_v63 (idx_main_v69 (ix4 b c h w))) = ix2 b h :=
  funext fun a => match a with | ⟨0, _⟩ => rfl | ⟨1, _⟩ => rfl
theorem idx_mask_col (b : Fin 64) (c : Fin 3) (h w : Fin 512) :
    idx_main_v62 (idx_main_v64 (idx_main_v69 (ix4 b c h w))) = ix2 b w :=
  funext fun a => match a with | ⟨0, _⟩ => rfl | ⟨1, _⟩ => rfl

/-- The float mask at (b, c, h, w): the 0/1 value of the row bit AND the column bit. -/
theorem mask_apply (x2 : (⟨S64x2, .i32⟩ : BufTy).Contents (Elt Ideal)) (b : Fin 64) (c : Fin 3) (h w : Fin 512) :
    val_main_v69 (F := Ideal) x2 (ix4 b c h w)
      = bitVal (IntOp.andi (inBand (val_main_v17 (F := Ideal) x2 (ix1 b)) (val_main_v18 (F := Ideal) x2 (ix1 b)) h.val)
          (inBand (val_main_v36 (F := Ideal) x2 (ix1 b)) (val_main_v37 (F := Ideal) x2 (ix1 b)) w.val)) := by
  rw [val_main_v69_apply, val_main_v66_apply, val_main_v65_apply, val_main_v63_apply, val_main_v64_apply, val_main_v61_apply,
    val_main_v62_apply, idx_mask_row, idx_mask_col, row_bit, col_bit]
  rfl

/-- |x0 - x1| at an index, as the shared spec writes it. -/
theorem absdiff_apply (x0 x1 : (⟨S64x3x512x512, .f32⟩ : BufTy).Contents (Elt Ideal)) (b : Fin 64) (c : Fin 3) (h w : Fin 512) :
    val_main_v68 (F := Ideal) x0 x1 (ix4 b c h w) = absDiffAt x0 x1 b c h w := by
  rw [val_main_v68_apply, val_main_v67_apply]
  rfl

/-- The reference's masked sum is zero plus the shared masked total at the reference's own tables. -/
theorem masked_eq (x0 x1 : (⟨S64x3x512x512, .f32⟩ : BufTy).Contents (Elt Ideal)) (x2 : (⟨S64x2, .i32⟩ : BufTy).Contents (Elt Ideal)) :
    val_main_v71 (F := Ideal) x0 x1 x2
      = fun _ => (0 : EReal) + maskedTotal x0 x1 (val_main_v17 (F := Ideal) x2) (val_main_v18 (F := Ideal) x2)
          (val_main_v36 (F := Ideal) x2) (val_main_v37 (F := Ideal) x2) := by
  funext i
  rw [val_main_v71_apply, sum_idx4]
  unfold maskedTotal
  refine congrArg₂ (fun a b : EReal => a + b) Ideal.ofBits_zero_f32 ?_
  refine Finset.sum_congr rfl fun b _ => Finset.sum_congr rfl fun c _ => Finset.sum_congr rfl fun h _ =>
    Finset.sum_congr rfl fun w _ => ?_
  rw [val_main_v70_apply, absdiff_apply, mask_apply]
  rfl

/-- The reference's plain sum is zero plus the shared plain total. -/
theorem plain_eq (x0 x1 : (⟨S64x3x512x512, .f32⟩ : BufTy).Contents (Elt Ideal)) :
    val_main_v72 (F := Ideal) x0 x1 = fun _ => (0 : EReal) + plainTotal x0 x1 := by
  funext i
  rw [val_main_v72_apply, sum_idx4]
  unfold plainTotal
  refine congrArg₂ (fun a b : EReal => a + b) Ideal.ofBits_zero_f32 ?_
  exact Finset.sum_congr rfl fun b _ => Finset.sum_congr rfl fun c _ => Finset.sum_congr rfl fun h _ =>
    Finset.sum_congr rfl fun w _ => absdiff_apply x0 x1 b c h w

/-- The reference's result is the shared closing arithmetic of its two sums. -/
theorem result_eq (x0 x1 : (⟨S64x3x512x512, .f32⟩ : BufTy).Contents (Elt F)) (x2 : (⟨S64x2, .i32⟩ : BufTy).Contents (Elt F)) :
    val_main_v78 (F := F) x0 x1 x2 = lossOf (val_main_v71 (F := F) x0 x1 x2) (val_main_v72 (F := F) x0 x1) := rfl

end Cert.ReferenceIdeal.RefValue

end
-- ==== Proof.lean ====
/-
  Masked L1 loss: the Pallas program against its jnp reference, over the extended reals.

  Inputs: X, Y of shape [64, 3, 512, 512] and a position array of shape [64, 2]. From the positions both programs
  derive, per batch b, a row band [lo b, hi b) and a column band [left b, right b) by the same integer operations.
  With d = |X - Y| entrywise,
      masked = ∑ b c h w, d(b,c,h,w) * [h in the row band of b AND w in the column band of b],   plain = ∑ b c h w, d(b,c,h,w),
      loss   = (plain - masked) / n_rest * 1/2 + 1/2 * (masked / n_patch).
  The reference multiplies d by the AND of the two bands' bits and sums over all four axes at once. The kernel, per
  batch, multiplies d by the column band's 0/1 mask, sums along rows, multiplies each row sum by the row band's 0/1
  mask, sums over rows and channels, and leaves the masked and the plain sum of the batch in two lanes of an output
  block; the host then sums each lane over the batches. The two agree because a 0/1 factor distributes over any finite
  sum of extended reals (x * 0 = 0 and x * 1 = x for every x, the infinities included), the value of an AND of two
  bits is the product of their values, and finite sums of extended reals may be regrouped freely. No finiteness of
  the inputs is used. The divisors and the halves are the same float words on both sides and are never evaluated.

  The frames: the word-level and the idealized kernel program run under the side condition on the prefetched tables,
  which is empty here because no index map reads a table; the reference's frame is its run with the result dropped.
-/
import proofs.«415426_j58841051955399_3_alg».proof.Defs
import proofs.«415426_j58841051955399_3_alg».proof.Proof.Gen.Kernel
import proofs.«415426_j58841051955399_3_alg».proof.Proof.Gen.KernelIdeal
import proofs.«415426_j58841051955399_3_alg».proof.Proof.Gen.ReferenceIdeal
import proofs.«415426_j58841051955399_3_alg».proof.Proof.Gen.ReferenceIdeal.Run
import proofs.«415426_j58841051955399_3_alg».proof.Proof.Gen.ReferenceIdeal.Read
import proofs.«415426_j58841051955399_3_alg».proof.Proof.Gen.Pre_finite_inputs
import proofs.«415426_j58841051955399_3_alg».proof.Proof.FrameKernel
import proofs.«415426_j58841051955399_3_alg».proof.Proof.FrameKernelIdeal
import proofs.«415426_j58841051955399_3_alg».proof.Proof.MaskedSums
import proofs.«415426_j58841051955399_3_alg».proof.Proof.KernelTail
import proofs.«415426_j58841051955399_3_alg».proof.Proof.Tables
import proofs.«415426_j58841051955399_3_alg».proof.Proof.RefValue
import Idealize.ShloMosaic.Adequacy
import Idealize.ShloMosaic.Init

noncomputable section

namespace Cert.Proof

open Idealize.ShloMosaic Idealize.SL.Sem Cert.MaskedSums

/-- No index map of the pallas_call reads a table, so the tables' side condition asks nothing: at the word-level
    program, -/
theorem ok_kernel (m : (ℓ : Loc Cert.Kernel.nD Cert.Kernel.τ Cert.Kernel.sig) → Buf (Elt Bits) ℓ) : Cert.Kernel.GenP.Ok m := trivial
/-- and at the idealized one. -/
theorem ok_kernelIdeal (m : (ℓ : Loc Cert.KernelIdeal.nD Cert.KernelIdeal.τ Cert.KernelIdeal.sig) → Buf (Elt Ideal) ℓ) :
    Cert.KernelIdeal.GenP.Ok m := trivial

theorem frame_kernel : Cert.frame_Kernel := fun m ρ _ => Cert.Kernel.GenP.frame m ρ (ok_kernel m)

theorem frame_kernelIdeal : Cert.frame_KernelIdeal := fun m ρ _ => Cert.KernelIdeal.GenP.frame m ρ (ok_kernelIdeal m)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the closing arithmetic of (0 + masked total) and (0 + plain total) of the argument arrays,
    the band ends being the reference's own vectors of the position array. -/
theorem algebraic : Cert.algebraic_KernelIdeal_ReferenceIdeal := by
  intro m ρ m' ρ' _ hagree
  refine ⟨fun c => lossOf (F := Ideal)
      (fun _ => (0 : EReal) + maskedTotal (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (Cert.ReferenceIdeal.Read.val_main_v17 (F := Ideal) (m ((c.tc : Thread Cert.KernelIdeal.nD Cert.KernelIdeal.τ).loc Cert.KernelIdeal.main_arg2)))
        (Cert.ReferenceIdeal.Read.val_main_v18 (F := Ideal) (m ((c.tc : Thread Cert.KernelIdeal.nD Cert.KernelIdeal.τ).loc Cert.KernelIdeal.main_arg2)))
        (Cert.ReferenceIdeal.Read.val_main_v36 (F := Ideal) (m ((c.tc : Thread Cert.KernelIdeal.nD Cert.KernelIdeal.τ).loc Cert.KernelIdeal.main_arg2)))
        (Cert.ReferenceIdeal.Read.val_main_v37 (F := Ideal) (m ((c.tc : Thread Cert.KernelIdeal.nD Cert.KernelIdeal.τ).loc Cert.KernelIdeal.main_arg2))))
      (fun _ => (0 : EReal) + plainTotal (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.GenP.run_value m ρ (ok_kernelIdeal m))
    obtain rfl : c = 0 := Subsingleton.elim _ _
    refine (Cert.KernelIdeal.GenP.result_value m (ok_kernelIdeal m) 0).trans ?_
    rw [Cert.KernelIdeal.GenP.V_main_arg0 m 0, Cert.KernelIdeal.GenP.V_main_arg1 m 0,
      Cert.KernelIdeal.GenP.tbl_lo m, Cert.KernelIdeal.GenP.tbl_hi m, Cert.KernelIdeal.GenP.tbl_left m, Cert.KernelIdeal.GenP.tbl_right m]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v78_eq, Cert.ReferenceIdeal.RefValue.result_eq, Cert.ReferenceIdeal.RefValue.masked_eq,
      Cert.ReferenceIdeal.RefValue.plain_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
